-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x16384 .f32) (main_arg1 : FVec F S16384x256 .f32) (main_arg2 : FVec F S256x256 .f32) (main_arg3 : FVec F S256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S1024x1024 : Shape := ⟨2, ![1024, 1024]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S16384x256, .f32⟩
  | .local _ .vmem, ⟨3, _⟩ => ⟨S256x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S16384x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .f32 = 32 ∨ (Rect.block (s := S16384x256) S16384x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S16384x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Spec.lean ====
/-
  One graph-convolution layer with sum aggregation, as a function of its four arrays.

  A is the N×N adjacency (N = 16384), X the N×C node features (C = 256), W the C×F weights (F = 256), b the F biases.
  Node n aggregates its neighbours' features, agg(n, c) = Σ_l A(n, l)·X(l, c); the layer's output at (n, f) is
  max(Σ_c agg(n, c)·W(c, f) + b(f), 0).

  A program that walks the N columns of A in 16 blocks of 1024 and carries a running total meets the partial sums
  part(r, c, k) = Σ_{t ≤ k} Σ_{j < 1024} A(r, 1024·t + j)·X(1024·t + j, c). Over the extended reals addition is a
  commutative monoid, so the grouping of a finite sum does not matter: part(n, c, 15) = agg(n, c). No other law of
  the extended reals is used (in particular nothing about finiteness).

  Rows and columns of the partial sums are natural numbers (a product outside the arrays counts zero), so that the
  arithmetic on block and offset (row 1024·q + p, column 1024·k + j) is arithmetic on naturals.
-/
import Idealize.ShloMosaic.PureOps.Ideal.Laws
import Idealize.ShloMosaic.Lib.ValueIdx
import proofs.«115133_j85890755986035_1_alg».proof.Proof.LibBlockSums

noncomputable section

namespace Cert.GraphLayer

open Idealize.ShloMosaic Idealize.ShloMosaic.ValueIdx

abbrev SAdj : Shape := ⟨2, ![16384, 16384]⟩
abbrev SFeat : Shape := ⟨2, ![16384, 256]⟩
abbrev SWt : Shape := ⟨2, ![256, 256]⟩
abbrev SBias : Shape := ⟨1, ![256]⟩

/-- Node `n`'s aggregated feature `c`: the sum over all nodes `l` of A(n, l)·X(l, c). -/
def agg (A : SAdj.Idx → EReal) (X : SFeat.Idx → EReal) (n : Fin 16384) (c : Fin 256) : EReal :=
  ∑ l : Fin 16384, A (ix2 n l) * X (ix2 l c)

/-- The layer: aggregate, multiply by the weights, add the bias, clamp below at zero. -/
def layer (A : SAdj.Idx → EReal) (X : SFeat.Idx → EReal) (W : SWt.Idx → EReal) (b : SBias.Idx → EReal) :
    SFeat.Idx → EReal := fun j =>
  max ((∑ c : Fin 256, agg A X (j 0) c * W (ix2 c (j 1))) + b (ix1 (j 1))) 0

/-- The product A(r, l)·X(l, c) as a function of natural numbers `r` and `l`, zero outside the arrays. -/
def term (A : SAdj.Idx → EReal) (X : SFeat.Idx → EReal) (r : ℕ) (c : Fin 256) (l : ℕ) : EReal :=
  if h : r < 16384 ∧ l < 16384 then A (ix2 ⟨r, h.1⟩ ⟨l, h.2⟩) * X (ix2 ⟨l, h.2⟩ c) else 0

theorem term_of_lt (A : SAdj.Idx → EReal) (X : SFeat.Idx → EReal) (r : ℕ) (c : Fin 256) (l : ℕ)
    (hr : r < 16384) (hl : l < 16384) : term A X r c l = A (ix2 ⟨r, hr⟩ ⟨l, hl⟩) * X (ix2 ⟨l, hl⟩ c) := by
  unfold term; rw [dif_pos ⟨hr, hl⟩]

/-- Column block `k`'s contribution to row `r`: the 1024 products of columns 1024·k … 1024·k + 1023. -/
def blockSum (A : SAdj.Idx → EReal) (X : SFeat.Idx → EReal) (r : ℕ) (c : Fin 256) (k : ℕ) : EReal :=
  ∑ j : Fin 1024, term A X r c (1024 * k + j.val)

/-- The running total after column blocks 0 … k. -/
def part (A : SAdj.Idx → EReal) (X : SFeat.Idx → EReal) (r : ℕ) (c : Fin 256) (k : ℕ) : EReal :=
  ∑ t ∈ Finset.range (k + 1), blockSum A X r c t

theorem part_zero (A : SAdj.Idx → EReal) (X : SFeat.Idx → EReal) (r : ℕ) (c : Fin 256) :
    part A X r c 0 = blockSum A X r c 0 := by
  unfold part; rw [Finset.sum_range_one]

theorem part_succ (A : SAdj.Idx → EReal) (X : SFeat.Idx → EReal) (r : ℕ) (c : Fin 256) (k : ℕ) :
    part A X r c (k + 1) = part A X r c k + blockSum A X r c (k + 1) := by
  unfold part; rw [Finset.sum_range_succ]

/-- All sixteen blocks together are the whole sum. -/
theorem part_last (A : SAdj.Idx → EReal) (X : SFeat.Idx → EReal) (n : Fin 16384) (c : Fin 256) :
    part A X n.val c 15 = agg A X n c := by
  unfold part blockSum agg
  rw [BlockSums.sum_blocks (term A X n.val c) 1024 16, ← Fin.sum_univ_eq_sum_range (term A X n.val c) (16 * 1024)]
  exact Finset.sum_congr rfl fun l _ => term_of_lt A X n.val c l.val n.isLt l.isLt

end Cert.GraphLayer

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Body.lean ====
/-
  The kernel body's three stored values, read at an entry at the ideal values.

  The reset stores zero. The accumulation stores acc(p, c) + Σ_l a(p, l)·x(l, c), the product of the 1024×1024 block of A
  with the matching 1024×256 tile of X added to what the scratch held (the narrowing of both factors to bf16 is the
  identity at the ideal values). The epilogue stores max(Σ_c acc(p, c)·w(c, f) + b(0, f), 0).
-/
import proofs.«115133_j85890755986035_1_alg».proof.Proof.Gen.KernelIdeal.Skeleton
import proofs.«115133_j85890755986035_1_alg».proof.Proof.LibDenseLayer

noncomputable section

namespace Cert.GraphLayer.Body

open Cert.KernelIdeal Cert.KernelIdeal.Gen Idealize.ShloMosaic Idealize.ShloMosaic.ValueIdx

/-- The reset's value is zero everywhere. -/
theorem reset_apply (j : S1024x256.Idx) : k0_pay1 (F := Ideal) j = 0 := by
  unfold k0_pay1
  rw [shapeCast_self]
  exact Ideal.ofBits_zero_f32

/-- The accumulation's value at (p, c): what the scratch held there plus row p of the block of A times column c of the
    tile of X. -/
theorem accumulate_apply (xt : FVec Ideal S1024x256 .f32) (a : FVec Ideal S1024x1024 .f32) (acc : FVec Ideal S1024x256 .f32)
    (p : Fin 1024) (c : Fin 256) :
    k0_pay2 (F := Ideal) xt a acc (ix2 p c) = acc (ix2 p c) + ∑ l : Fin 1024, a (ix2 p l) * xt (ix2 l c) := by
  unfold k0_pay2
  rw [shapeCast_self]
  exact congrArg (acc (ix2 p c) + ·)
    (DenseLayer.matmul_rows_apply dot_S1024x1024_S1024x256_S1024x256_1_0_0_1_n_n_wf none a xt p c)

/-- The epilogue's value at (p, f): the scratch's row p times column f of W, plus the bias, clamped below at zero. -/
theorem epilogue_apply (acc : FVec Ideal S1024x256 .f32) (w : FVec Ideal S256x256 .f32) (b : FVec Ideal S1x256 .f32)
    (p : Fin 1024) (f : Fin 256) :
    k0_pay3 (F := Ideal) acc w b (ix2 p f)
      = max ((∑ c : Fin 256, acc (ix2 p c) * w (ix2 c f)) + b (ix2 0 f)) 0 := by
  unfold k0_pay3
  rw [shapeCast_self]
  show max (FloatOps.matmul _ none _ _ _ (ix2 p f) + broadcastTo S1024x256 b broadcasts_S1x256_S1024x256 (ix2 p f))
    (Ideal.ofBits .f32 0x00000000#32) = _
  rw [Ideal.ofBits_zero_f32, broadcastTo_1b_ab_apply]
  exact congrArg (fun z => max (z + b (ix2 0 f)) 0)
    (DenseLayer.matmul_rows_apply dot_S1024x256_S256x256_S1024x256_1_0_0_1_n_n_wf none acc w p f)

end Cert.GraphLayer.Body

end
-- ==== Proof.Pieces.lean ====
/-
  What each case of the kernel body leaves behind, as the body's stored values.

  The body runs in three cases. At the first column block of a row block it resets the scratch to zero, then adds the
  block product; at the middle blocks it adds the block product to what the scratch held; at the last block it adds
  likewise and then stores the epilogue of the scratch into the output block. In every case the scratch ends holding the
  accumulation's value over the 1024 rows of X that match the column block, and in the last case the output block ends
  holding the epilogue's value of that scratch.
-/
import proofs.«115133_j85890755986035_1_alg».proof.Proof.Gen.KernelIdeal.Frame
import Idealize.ShloMosaic.Lib.Pipeline.Value
import Idealize.ShloMosaic.Lib.Tactic

noncomputable section

namespace Cert.GraphLayer.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 1024 rows of X the body loads at a grid point: the rows from the point's row offset on. -/
abbrev xtile (i : grid0.Coords) (x1 : Vec F S16384x256 .f32) : Vec F S1024x256 .f32 :=
  View.ld x1 (Rect.unit (s := S16384x256) (k0_off1 i) S1024x256.size (k0_off1_inb i))

/-- First column block: the scratch ends at the accumulation over the reset value. -/
theorem scratch_first (c : Dev nD) (i : grid0.Coords) (arg2 : Memref sig .tc .vmem S1024x1024 .f32) (harg2 : arg2.IsWhole) (arg3 : Memref sig .tc .vmem S16384x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x1024 .f32) (x1 : Vec F S16384x256 .f32) (x2 : Vec F S256x256 .f32) (x3 : Vec F S1x256 .f32) :
    sout0_A_0 c i arg2 harg2 arg3 harg3 arg4 harg4 arg5 harg5 arg6 harg6 arg7 harg7 hc0 hc1 x0 x1 x2 x3 = k0_pay2 (xtile i x1) x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x256) hz]
  simp only [View.readAt_eq_ld, harg2.read_unread, harg3.read_unread, View.ld_unit_zero (S := S1024x1024) hz,
    View.readCov_unit_zero (S := S1024x256) _ hz]
  rfl

/-- Middle column blocks: the scratch ends at the accumulation over what it held. -/
theorem scratch_middle (c : Dev nD) (i : grid0.Coords) (arg2 : Memref sig .tc .vmem S1024x1024 .f32) (harg2 : arg2.IsWhole) (arg3 : Memref sig .tc .vmem S16384x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x1024 .f32) (x1 : Vec F S16384x256 .f32) (x2 : Vec F S256x256 .f32) (x3 : Vec F S1x256 .f32) (xs0 : Vec F S1024x256 .f32) :
    sout0_B_0 c i arg2 harg2 arg3 harg3 arg4 harg4 arg5 harg5 arg6 harg6 arg7 harg7 hc0 hc1 x0 x1 x2 x3 xs0 = k0_pay2 (xtile i x1) x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg7.read_unread,
    View.ld_unit_zero (S := S1024x1024) hz, View.ld_unit_zero (S := S1024x256) hz]
  rfl

/-- Last column block: the scratch ends at the accumulation over what it held, -/
theorem scratch_last (c : Dev nD) (i : grid0.Coords) (arg2 : Memref sig .tc .vmem S1024x1024 .f32) (harg2 : arg2.IsWhole) (arg3 : Memref sig .tc .vmem S16384x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x1024 .f32) (x1 : Vec F S16384x256 .f32) (x2 : Vec F S256x256 .f32) (x3 : Vec F S1x256 .f32) (xs0 : Vec F S1024x256 .f32) :
    sout0_C_0 c i arg2 harg2 arg3 harg3 arg4 harg4 arg5 harg5 arg6 harg6 arg7 harg7 hc0 hc1 x0 x1 x2 x3 xs0 = k0_pay2 (xtile i x1) x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S1024x1024) hz, View.ld_unit_zero (S := S1024x256) hz]
  rfl

/-- and the output block at the epilogue of that scratch. -/
theorem output_last (c : Dev nD) (i : grid0.Coords) (arg2 : Memref sig .tc .vmem S1024x1024 .f32) (harg2 : arg2.IsWhole) (arg3 : Memref sig .tc .vmem S16384x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x1024 .f32) (x1 : Vec F S16384x256 .f32) (x2 : Vec F S256x256 .f32) (x3 : Vec F S1x256 .f32) (xs0 : Vec F S1024x256 .f32) :
    out0_C_4 c i arg2 harg2 arg3 harg3 arg4 harg4 arg5 harg5 arg6 harg6 arg7 harg7 hc0 hc1 x0 x1 x2 x3 xs0 = k0_pay3 (k0_pay2 (xtile i x1) x0 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S1024x1024) hz, View.ld_unit_zero (S := S1024x256) hz,
    View.ld_unit_zero (S := S256x256) hz, View.ld_unit_zero (S := S1x256) hz,
    View.readCov_unit_zero (S := S1024x256) _ hz]
  rfl

end Cert.GraphLayer.Pieces

end
-- ==== Proof.Scratch.lean ====
/-
  The scratch after each grid point is a partial sum of the aggregation.

  Grid point t = 16·q + k handles row block q of the output and column block k of A. The kernel's block of A at the
  point holds A(1024·q + p, 1024·k + l), the rows of X it loads hold X(1024·k + l, c), so the product it adds at (p, c)
  is column block k's contribution to row 1024·q + p. The first point of a row block (k = 0) starts from zero, every
  later point adds to what the point before left: by induction on the point, after point t the scratch holds at (p, c)
  the running total of row 1024·q + p over column blocks 0 … k.
-/
import proofs.«115133_j85890755986035_1_alg».proof.Proof.Gen.KernelIdeal.Value
import proofs.«115133_j85890755986035_1_alg».proof.Proof.Spec
import proofs.«115133_j85890755986035_1_alg».proof.Proof.Body
import proofs.«115133_j85890755986035_1_alg».proof.Proof.Pieces

noncomputable section

namespace Cert.GraphLayer.Run

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ)

/-- The arrays as the kernel region finds them, at their literal types. -/
abbrev adj (c : Dev nD) : SAdj.Idx → EReal := V m c main_arg0
abbrev feat (c : Dev nD) : SFeat.Idx → EReal := V m c main_arg1
abbrev wts (c : Dev nD) : SWt.Idx → EReal := V m c main_arg2
abbrev biasRow (c : Dev nD) : (⟨2, ![1, 256]⟩ : Shape).Idx → EReal := V m c main_v0

/-- The windows' blocks at a grid point, at their literal types. -/
abbrev ablk (c : Dev nD) (t : Fin cfg0.N) : Vec Ideal S1024x1024 .f32 := iblk m c 0 t
abbrev xall (c : Dev nD) (t : Fin cfg0.N) : Vec Ideal S16384x256 .f32 := iblk m c 1 t
abbrev wall (c : Dev nD) (t : Fin cfg0.N) : Vec Ideal S256x256 .f32 := iblk m c 2 t
abbrev brow (c : Dev nD) (t : Fin cfg0.N) : Vec Ideal S1x256 .f32 := iblk m c 3 t

theorem pt_lt (t : Fin cfg0.N) : t.val < 256 := lt_of_lt_of_eq t.isLt (show cfg0.N = 256 from N_0)

/-- Where each window's block sits at grid point t = 16·q + k: A's block at (q, k), the output's at (q, 0), the
    whole-array windows at (0, 0); and the body's row offset into X is 1024·k. -/
theorem idx_facts : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0
    ∧ k0_off1 (grid0.coords t) (0 : Fin 2) = 1024 * (t.val % 16) ∧ k0_off1 (grid0.coords t) (1 : Fin 2) = 0 :=
  (by decide +kernel : ∀ t : Fin grid0.N, _)

/-- A's block at point t reads A at row 1024·q + p, column 1024·k + l. -/
theorem ablk_apply (c : Dev nD) (t : Fin cfg0.N) (p l : Fin 1024)
    (h1 : 1024 * (t.val / 16) + p.val < 16384) (h2 : 1024 * (t.val % 16) + l.val < 16384) :
    ablk m c t (ix2 p l) = adj m c (ix2 ⟨1024 * (t.val / 16) + p.val, h1⟩ ⟨1024 * (t.val % 16) + l.val, h2⟩) := by
  obtain ⟨e0, e1, -⟩ := idx_facts t
  show V m c main_arg0 (((cfg0.win 0).blk t).view.emb (ix2 p l)) = V m c main_arg0 _
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * l.val = 1024 * (t.val % 16) + l.val; omega

/-- The rows of X the body loads at point t read X at row 1024·k + l. -/
theorem xtile_apply (c : Dev nD) (t : Fin cfg0.N) (l : Fin 1024) (cc : Fin 256)
    (h : 1024 * (t.val % 16) + l.val < 16384) :
    Pieces.xtile (grid0.coords t) (xall m c t) (ix2 l cc) = feat m c (ix2 ⟨1024 * (t.val % 16) + l.val, h⟩ cc) := by
  obtain ⟨-, -, e2, e3, -, -, -, -, -, -, e10, e11⟩ := idx_facts t
  show V m c main_arg1 (((cfg0.win 1).blk t).view.emb
    ((Rect.unit (s := S16384x256) (k0_off1 (grid0.coords t)) S1024x256.size (k0_off1_inb _)).idx (ix2 l cc))) = V m c main_arg1 _
  refine congrArg _ (funext fun a => Fin.ext ?_)
  match a with
  | ⟨0, _⟩ =>
    show win0_1.index t (0 : Fin 2) * 16384 + 1 * (k0_off1 (grid0.coords t) (0 : Fin 2) + 1 * l.val) = 1024 * (t.val % 16) + l.val
    omega
  | ⟨1, _⟩ =>
    show win0_1.index t (1 : Fin 2) * 256 + 1 * (k0_off1 (grid0.coords t) (1 : Fin 2) + 1 * cc.val) = cc.val
    omega

/-- The product the body adds at (p, c) at point t. -/
def added (c : Dev nD) (t : Fin cfg0.N) (p : Fin 1024) (cc : Fin 256) : EReal :=
  ∑ l : Fin 1024, ablk m c t (ix2 p l) * Pieces.xtile (grid0.coords t) (xall m c t) (ix2 l cc)

/-- It is column block k's contribution to row 1024·q + p. -/
theorem added_eq (c : Dev nD) (t : Fin cfg0.N) (p : Fin 1024) (cc : Fin 256) :
    added m c t p cc = blockSum (adj m c) (feat m c) (1024 * (t.val / 16) + p.val) cc (t.val % 16) := by
  have ht := pt_lt t
  unfold added blockSum
  refine Finset.sum_congr rfl fun l _ => ?_
  have h1 : 1024 * (t.val / 16) + p.val < 16384 := by have := p.isLt; omega
  have h2 : 1024 * (t.val % 16) + l.val < 16384 := by have := l.isLt; omega
  rw [term_of_lt _ _ _ _ _ h1 h2, ablk_apply m c t p l h1 h2, xtile_apply m c t l cc h2]

/-- At the first point of a row block the scratch ends at zero plus the product. -/
theorem scratch_at_first (c : Dev nD) (t : Fin cfg0.N) (h0 : t.val % 16 = 0) (h1 : ¬t.val % 16 = 15)
    (p : Fin 1024) (cc : Fin 256) :
    (outsAt0 m c t.val t.isLt).2 (ix2 p cc) = 0 + added m c t p cc := by
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)) (ix2 p cc)).trans ?_
  refine (Body.accumulate_apply (Pieces.xtile (grid0.coords t) (xall m c t)) (ablk m c t) (k0_pay1 (F := Ideal)) p cc).trans ?_
  rw [Body.reset_apply]
  rfl

/-- At a middle point it ends at what the point before left plus the product. -/
theorem scratch_at_middle (c : Dev nD) (t : Fin cfg0.N) (h0 : ¬t.val % 16 = 0) (h1 : ¬t.val % 16 = 15)
    (p : Fin 1024) (cc : Fin 256) :
    (outsAt0 m c t.val t.isLt).2 (ix2 p cc)
      = (outsAt0 m c (t.val - 1) (Nat.lt_of_le_of_lt (Nat.sub_le _ _) t.isLt)).2 (ix2 p cc) + added m c t p cc := by
  rw [outsAt0_B m c t h0 h1]
  dsimp only
  refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2) (ix2 p cc)).trans ?_
  exact Body.accumulate_apply (Pieces.xtile (grid0.coords t) (xall m c t)) (ablk m c t)
    (outsAt0 m c (t.val - 1) (Nat.lt_of_le_of_lt (Nat.sub_le _ _) t.isLt)).2 p cc

/-- At the last point of a row block likewise. -/
theorem scratch_at_last (c : Dev nD) (t : Fin cfg0.N) (h0 : ¬t.val % 16 = 0) (h1 : t.val % 16 = 15)
    (p : Fin 1024) (cc : Fin 256) :
    (outsAt0 m c t.val t.isLt).2 (ix2 p cc)
      = (outsAt0 m c (t.val - 1) (Nat.lt_of_le_of_lt (Nat.sub_le _ _) t.isLt)).2 (ix2 p cc) + added m c t p cc := by
  rw [outsAt0_C m c t h0 h1]
  dsimp only
  refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2) (ix2 p cc)).trans ?_
  exact Body.accumulate_apply (Pieces.xtile (grid0.coords t) (xall m c t)) (ablk m c t)
    (outsAt0 m c (t.val - 1) (Nat.lt_of_le_of_lt (Nat.sub_le _ _) t.isLt)).2 p cc

/-- After point n = 16·q + k the scratch holds at (p, c) the running total of row 1024·q + p over column blocks
    0 … k: by induction on the point. -/
theorem scratch_eq (c : Dev nD) : ∀ (n : ℕ) (h : n < cfg0.N) (p : Fin 1024) (cc : Fin 256),
    (outsAt0 m c n h).2 (ix2 p cc) = part (adj m c) (feat m c) (1024 * (n / 16) + p.val) cc (n % 16)
  | 0, h, p, cc => by
    rw [scratch_at_first m c ⟨0, h⟩ rfl (by dsimp only; omega) p cc, added_eq, zero_add, part_zero]
    rfl
  | n + 1, h, p, cc => by
    have hN : n + 1 < 256 := lt_of_lt_of_eq h (show cfg0.N = 256 from N_0)
    by_cases h0 : (n + 1) % 16 = 0
    · have h1 : ¬(n + 1) % 16 = 15 := by omega
      rw [scratch_at_first m c ⟨n + 1, h⟩ h0 h1 p cc, added_eq, zero_add]
      show blockSum _ _ (1024 * ((n + 1) / 16) + p.val) cc ((n + 1) % 16) = _
      rw [h0, part_zero]
    · have hprev := scratch_eq c n (Nat.lt_of_succ_lt h) p cc
      have eq : (n + 1) / 16 = n / 16 := by omega
      have er : (n + 1) % 16 = n % 16 + 1 := by omega
      have step : (outsAt0 m c (n + 1) h).2 (ix2 p cc)
          = (outsAt0 m c n (Nat.lt_of_succ_lt h)).2 (ix2 p cc) + added m c ⟨n + 1, h⟩ p cc := by
        by_cases h1 : (n + 1) % 16 = 15
        · exact scratch_at_last m c ⟨n + 1, h⟩ h0 h1 p cc
        · exact scratch_at_middle m c ⟨n + 1, h⟩ h0 h1 p cc
      rw [step, hprev, added_eq]
      show _ + blockSum _ _ (1024 * ((n + 1) / 16) + p.val) cc ((n + 1) % 16) = _
      rw [eq, er, part_succ]

end Cert.GraphLayer.Run

end
-- ==== Proof.Result.lean ====
/-
  The output array after the run is the layer of the argument arrays.

  Only the last point of each row block (k = 15) writes its output block back. There the scratch holds the whole
  aggregation of the block's rows, so the block written is rows 1024·q … 1024·q + 1023 of the layer. The sixteen blocks
  written back tile the output array, which therefore ends holding the layer. The bias reaches the kernel as a one-row
  matrix cast from the bias vector, and no host operation before the kernel touches the other three arrays.
-/
import proofs.«115133_j85890755986035_1_alg».proof.Proof.Scratch
import Idealize.ShloMosaic.Lib.StableHlo.Run
import Idealize.ShloMosaic.Lib.ValueLayout

noncomputable section

namespace Cert.GraphLayer.Run

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ) (ρ : Dev nD → PrngReg)

/-- The layer of the arrays as the kernel region finds them, the bias read off its one-row matrix. -/
def result (c : Dev nD) : Buf (Elt Ideal) ((c : Thread nD τ).loc main_v1) :=
  layer (adj m c) (feat m c) (wts m c) (fun j => biasRow m c (ix2 (0 : Fin 1) (j 0)))

theorem result_apply (c : Dev nD) (r : Fin 16384) (f : Fin 256) :
    result m c (ix2 r f)
      = max ((∑ cc : Fin 256, agg (adj m c) (feat m c) r cc * wts m c (ix2 cc f)) + biasRow m c (ix2 (0 : Fin 1) f)) 0 := rfl

/-- The weights' window is the whole array. -/
theorem wall_apply (c : Dev nD) (t : Fin cfg0.N) (cc f : Fin 256) : wall m c t (ix2 cc f) = wts m c (ix2 cc f) := by
  obtain ⟨-, -, -, -, e4, e5, -⟩ := idx_facts t
  show V m c main_arg2 (((cfg0.win 2).blk t).view.emb (ix2 cc f)) = V m c main_arg2 _
  refine congrArg _ (funext fun a => Fin.ext ?_)
  match a with
  | ⟨0, _⟩ => show win0_2.index t (0 : Fin 2) * 256 + 1 * cc.val = cc.val; omega
  | ⟨1, _⟩ => show win0_2.index t (1 : Fin 2) * 256 + 1 * f.val = f.val; omega

/-- The bias row's window is the whole row. -/
theorem brow_apply (c : Dev nD) (t : Fin cfg0.N) (f : Fin 256) :
    brow m c t (ix2 (0 : Fin 1) f) = biasRow m c (ix2 (0 : Fin 1) f) := by
  obtain ⟨-, -, -, -, -, -, e6, e7, -⟩ := idx_facts t
  show V m c main_v0 (((cfg0.win 3).blk t).view.emb (ix2 (0 : Fin 1) f)) = V m c main_v0 _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * f.val = f.val; omega

/-- At the last point of a row block the scratch the epilogue reads is the one the invariant describes. -/
theorem scratch_read_last (c : Dev nD) (t : Fin cfg0.N) (h0 : ¬t.val % 16 = 0) (h1 : t.val % 16 = 15) :
    k0_pay2 (Pieces.xtile (grid0.coords t) (xall m c t)) (ablk m c t)
        (outsAt0 m c (t.val - 1) (Nat.lt_of_le_of_lt (Nat.sub_le _ _) t.isLt)).2
      = (outsAt0 m c t.val t.isLt).2 := by
  rw [outsAt0_C m c t h0 h1]
  dsimp only
  exact (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2).symm

/-- The output block of point t sits at rows 1024·q …, all 256 columns. -/
theorem out_emb (t : Fin cfg0.N) (p : Fin 1024) (f : Fin 256) (h : 1024 * (t.val / 16) + p.val < 16384) :
    ((cfg0.win 4).blk t).view.emb (ix2 p f) = ix2 ⟨1024 * (t.val / 16) + p.val, h⟩ f := by
  obtain ⟨-, -, -, -, -, -, -, -, e8, e9, -⟩ := idx_facts t
  refine funext fun a => Fin.ext ?_
  match a with
  | ⟨0, _⟩ => show win0_4.index t (0 : Fin 2) * 1024 + 1 * p.val = 1024 * (t.val / 16) + p.val; omega
  | ⟨1, _⟩ => show win0_4.index t (1 : Fin 2) * 256 + 1 * f.val = f.val; omega

/-- What a point writes back is its block of the layer. -/
theorem flushed_eq (c : Dev nD) (t : Fin cfg0.N) (hf : (cfg0.win 4).flush t = true) :
    (dats m 0 c).flushed 4 t = ((cfg0.win 4).blk t).view.read (Elt Ideal) (result m c) := by
  have ht := pt_lt t
  have h1 : t.val % 16 = 15 := (flush0_4 t).mp hf
  have h0 : ¬t.val % 16 = 0 := by omega
  rw [Cert.KernelIdeal.Value.flushed4_C m c t h0 h1]
  funext j
  obtain ⟨p, f, rfl⟩ : ∃ (p : Fin 1024) (f : Fin 256), j = ix2 p f := ⟨j 0, j 1, eq_ix2 j⟩
  have hr : 1024 * (t.val / 16) + p.val < 16384 := by have := p.isLt; omega
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2 (ix2 p f)
    = result m c (((cfg0.win 4).blk t).view.emb (ix2 p f))
  rw [out_emb t p f hr, result_apply]
  refine (congrFun (Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2) (ix2 p f)).trans ?_
  rw [scratch_read_last m c t h0 h1]
  refine (Body.epilogue_apply (outsAt0 m c t.val t.isLt).2 (wall m c t) (brow m c t) p f).trans ?_
  rw [brow_apply]
  refine congrArg (fun z => max (z + biasRow m c (ix2 (0 : Fin 1) f)) 0) (Finset.sum_congr rfl fun cc _ => ?_)
  rw [wall_apply, scratch_eq m c t.val t.isLt p cc, h1]
  exact congrArg (· * wts m c (ix2 cc f)) (part_last (adj m c) (feat m c) ⟨1024 * (t.val / 16) + p.val, hr⟩ cc)

/-- An index of the output array is in point t's block iff each coordinate is in the block's range. -/
theorem mem_blk (t : Fin cfg0.N) (i : S16384x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v1).slice (win0_4.rect t)).set ↔ _
  rw [View.set_slice_whole, Rect.mem_set_unit]
  exact Iff.rfl

/-- The blocks written back tile the output: row r lies in the block of the last point of row block r / 1024. -/
theorem cover (i : S16384x256.Idx) :
    ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 256 := N_0
  let t : Fin cfg0.N := ⟨16 * ((i 0).val / 1024) + 15, by omega⟩
  have tv : t.val = 16 * ((i 0).val / 1024) + 15 := rfl
  obtain ⟨-, -, -, -, -, -, -, -, e8, e9, -⟩ := idx_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- The output array after the run. -/
theorem final (c : Dev nD) : (dats m 0 c).arrAt 4 cfg0.N = result m c :=
  (dats m 0 c).arrAt_eq_of_cover 4 (result m c) (flushed_eq m c) cover

/-- The one-row matrix the kernel reads the bias from is the bias vector cast to one row. -/
theorem biasRow_apply (c : Dev nD) (f : Fin 256) :
    biasRow m c (ix2 (0 : Fin 1) f) = m ((c : Thread nD τ).loc main_arg3) (ix1 f) := by
  have e : (V m c main_v0 : S1x256.Idx → EReal)
      = shapeCast S1x256 (m ((c : Thread nD τ).loc main_arg3)) shapeCasts_S256_S1x256 := by
    dsimp only [Gen.V, Gen.hostOps0]; after_results; rfl
  show (V m c main_v0 : S1x256.Idx → EReal) (ix2 (0 : Fin 1) f) = _
  rw [e]
  exact shapeCast_a_1a_apply _ _ _ _

/-- In terms of the arguments as launched: the result is the layer of the four argument arrays. -/
theorem result_eq (c : Dev nD) :
    result m c = layer (m ((c : Thread nD τ).loc main_arg0)) (m ((c : Thread nD τ).loc main_arg1))
      (m ((c : Thread nD τ).loc main_arg2)) (m ((c : Thread nD τ).loc main_arg3)) := by
  unfold result
  have ea : adj m c = m ((c : Thread nD τ).loc main_arg0) := V_main_arg0 m c
  have ef : feat m c = m ((c : Thread nD τ).loc main_arg1) := V_main_arg1 m c
  have ew : wts m c = m ((c : Thread nD τ).loc main_arg2) := V_main_arg2 m c
  have eb : (fun j : SBias.Idx => biasRow m c (ix2 (0 : Fin 1) (j 0))) = m ((c : Thread nD τ).loc main_arg3) :=
    funext fun j => (biasRow_apply m c (j 0)).trans (congrArg _ (eq_ix1 j).symm)
  rw [ea, ef, ew, eb]

/-- The kernel program's run at the ideal values: the output array ends at the layer of the arguments, which end
    unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (Cert.KernelIdeal.Value.run_blocks m ρ)

end Cert.GraphLayer.Run

end
-- ==== Proof.RefLayer.lean ====
/-
  The reference program computes the layer.

  Read one operation at a time, the reference's result at (n, f) is
  max(Σ_c (Σ_l A(n, l)·X(l, c))·W(c, f) + b(f), 0): two products read as sums over the contracted coordinate, the bias
  laid along the rows, the clamp against a broadcast zero. That is the layer's definition, index by index.
-/
import proofs.«115133_j85890755986035_1_alg».proof.Proof.Gen.ReferenceIdeal.Read
import proofs.«115133_j85890755986035_1_alg».proof.Proof.Spec

noncomputable section

namespace Cert.GraphLayer.Ref

open Cert.ReferenceIdeal Cert.ReferenceIdeal.Read Idealize.ShloMosaic Idealize.ShloMosaic.ValueIdx Cert.GraphLayer

theorem lidx1_eq (i : S16384x256.Idx) (k : Fin 256) : lidx_main_v1 i k = ix2 (i 0) k :=
  funext fun a => by match a with | ⟨0, _⟩ => rfl | ⟨1, _⟩ => rfl

theorem ridx1_eq (i : S16384x256.Idx) (k : Fin 256) : ridx_main_v1 i k = ix2 k (i 1) :=
  funext fun a => by match a with | ⟨0, _⟩ => rfl | ⟨1, _⟩ => rfl

theorem lidx0_eq (n : Fin 16384) (k : Fin 256) (l : Fin 16384) : lidx_main_v0 (ix2 n k) l = ix2 n l :=
  funext fun a => by match a with | ⟨0, _⟩ => rfl | ⟨1, _⟩ => rfl

theorem ridx0_eq (n : Fin 16384) (k : Fin 256) (l : Fin 16384) : ridx_main_v0 (ix2 n k) l = ix2 l k :=
  funext fun a => by match a with | ⟨0, _⟩ => rfl | ⟨1, _⟩ => rfl

theorem bias_idx_eq (i : S16384x256.Idx) : idx_main_v2 (idx_main_v3 i) = ix1 (i 1) :=
  funext fun a => by match a with | ⟨0, _⟩ => rfl

/-- The reference's result, as a function of its four arguments at the ideal values, is the layer. -/
theorem reference_eq (A : SAdj.Idx → EReal) (X : SFeat.Idx → EReal) (W : SWt.Idx → EReal) (b : SBias.Idx → EReal) :
    val_main_v5 (F := Ideal) A X W b = layer A X W b := by
  have h0 : ∀ (n : Fin 16384) (k : Fin 256),
      val_main_v0 (F := Ideal) A X (ix2 n k) = ∑ l : Fin 16384, A (ix2 n l) * X (ix2 l k) := by
    intro n k
    rw [val_main_v0_apply]
    simp only [lidx0_eq, ridx0_eq]
  funext i
  unfold layer agg
  simp only [h0, val_main_v5_apply, val_main_v4_apply, val_main_v1_apply, val_main_v3_apply, val_main_v2_apply,
    val_main_call0_v0_apply, val_main_call0_cst_apply, bias_idx_eq, lidx1_eq, ridx1_eq, val_main_v0_apply, lidx0_eq,
    ridx0_eq, Ideal.maximumf_def, Ideal.addf_def, Ideal.ofBits_def, Ideal.ofBits_zero_f32]
  refine congrArg (fun z => max (z + b (ix1 (i 1))) 0) (Finset.sum_congr rfl fun c _ => ?_)
  exact congrArg (· * W (ix2 c (i 1))) (h0 (i 0) c)

end Cert.GraphLayer.Ref

end
-- ==== Proof.lean ====
/-
  A graph-convolution layer with sum aggregation: relu((A·X)·W + b) over A : 16384×16384, X : 16384×256, W : 256×256,
  b : 256.

  The kernel walks a 16×16 grid: point (q, k) multiplies the 1024×1024 block (q, k) of A with rows 1024·k … of X and
  adds the product into a scratch that it zeroes at k = 0; at k = 15 it multiplies the scratch by W, adds the bias row,
  clamps below at zero and writes the result as rows 1024·q … of the output. The reference computes the two products
  whole, adds the bias along the rows and clamps.

  At the ideal values both are the same function of the four arrays (Spec.lean: `layer`): the scratch after point
  (q, k) is the partial sum of the aggregation over column blocks 0 … k (Scratch.lean, by induction on the point), the
  sixteen partial sums together are the whole sum because addition of extended reals is a commutative monoid
  (Spec.lean: `part_last`), the blocks written back tile the output (Result.lean), and the reference read operation by
  operation is the layer's definition (RefLayer.lean). The narrowing of the matrix factors to bf16 is the identity at
  the ideal values; finiteness of the inputs is not needed. The ideal pass rewrote nothing, so the kernel's
  idealization is its own text and that conjunct is trivial. The three frames are the generated ones.
-/
import proofs.«115133_j85890755986035_1_alg».proof.Defs
import proofs.«115133_j85890755986035_1_alg».proof.Proof.Gen.Kernel
import proofs.«115133_j85890755986035_1_alg».proof.Proof.Gen.Kernel.Skeleton
import proofs.«115133_j85890755986035_1_alg».proof.Proof.Gen.Kernel.Launch
import proofs.«115133_j85890755986035_1_alg».proof.Proof.Gen.Kernel.Points
import proofs.«115133_j85890755986035_1_alg».proof.Proof.Gen.Kernel.Frame
import proofs.«115133_j85890755986035_1_alg».proof.Proof.Gen.KernelIdeal
import proofs.«115133_j85890755986035_1_alg».proof.Proof.Gen.KernelIdeal.Skeleton
import proofs.«115133_j85890755986035_1_alg».proof.Proof.Gen.KernelIdeal.Launch
import proofs.«115133_j85890755986035_1_alg».proof.Proof.Gen.KernelIdeal.Points
import proofs.«115133_j85890755986035_1_alg».proof.Proof.Gen.KernelIdeal.Frame
import proofs.«115133_j85890755986035_1_alg».proof.Proof.Gen.ReferenceIdeal
import proofs.«115133_j85890755986035_1_alg».proof.Proof.Gen.Pre_finite_inputs
import proofs.«115133_j85890755986035_1_alg».proof.Proof.Gen.KernelIdeal.Value
import proofs.«115133_j85890755986035_1_alg».proof.Proof.Gen.ReferenceIdeal.Run
import proofs.«115133_j85890755986035_1_alg».proof.Proof.Gen.ReferenceIdeal.Read
import proofs.«115133_j85890755986035_1_alg».proof.Proof.Result
import proofs.«115133_j85890755986035_1_alg».proof.Proof.RefLayer
import Idealize.ShloMosaic.Adequacy
import Idealize.ShloMosaic.Init

noncomputable section

namespace Cert.Proof

open Idealize.ShloMosaic Idealize.ShloMosaic.TcCoe Idealize.SL.Sem

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal values the kernel's output array and the reference's result both end at the layer of arguments that
    agree. -/
theorem algebraic : Cert.algebraic_KernelIdeal_ReferenceIdeal := by
  intro m ρ m' ρ' _ hagree
  refine ⟨_, Cert.GraphLayer.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v5_eq (F := Ideal) _ _ _ _).trans ?_
  exact Cert.GraphLayer.Ref.reference_eq _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
